-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S800000 32) (main_arg2 : IVec S800000 32) (main_v33 : IVec S_ 1) : IVec S_ 1 :=
  let main_c_12 : IVec S_ 32 := constantI S_ 32 4294867296#32
  let main_v34 : IVec S800000 32 := broadcastInDim S800000 ![] bcast_S_S800000 main_c_12
  let main_v35 : IVec S800000 1 := cmpi .sge main_arg1 main_v34
  let main_c_13 : IVec S_ 32 := constantI S_ 32 100000#32
  let main_v36 : IVec S800000 32 := broadcastInDim S800000 ![] bcast_S_S800000 main_c_13
  let main_v37 : IVec S800000 1 := cmpi .slt main_arg1 main_v36
  let main_v38 : IVec S800000 1 := andi main_v35 main_v37
  let main_c_14 : IVec S_ 1 := constantI S_ 1 1#1
  let main_v39 : IVec S_ 1 := (fun x v => Host.reduce IntOp.andi x v reducesTo_S800000_S_d0 h_S_) main_v38 main_c_14
  let main_v40 : IVec S_ 1 := andi main_v33 main_v39
  let main_c_15 : IVec S_ 32 := constantI S_ 32 4294867296#32
  let main_v41 : IVec S800000 32 := broadcastInDim S800000 ![] bcast_S_S800000 main_c_15
  let main_v42 : IVec S800000 1 := cmpi .sge main_arg2 main_v41
  let main_c_16 : IVec S_ 32 := constantI S_ 32 100000#32
  let main_v43 : IVec S800000 32 := broadcastInDim S800000 ![] bcast_S_S800000 main_c_16
  let main_v44 : IVec S800000 1 := cmpi .slt main_arg2 main_v43
  let main_v45 : IVec S800000 1 := andi main_v42 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v40 main_v46
  main_v47

def fn_part1 {F : FTy → Type} [FloatOps F] (main_arg1 : IVec S800000 32) (main_arg2 : IVec S800000 32) (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg1 main_arg2 main_v33

def fn {F : FTy → Type} [FloatOps F] (main_arg0 : FVec F S100000x128 .f32) (main_arg1 : IVec S800000 32) (main_arg2 : IVec S800000 32) (main_arg3 : FVec F S256x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_v13 main_v16
-- ==== Kernel.lean ====
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S1x2 : Shape := ⟨2, ![1, 2]⟩
abbrev S800000x2 : Shape := ⟨2, ![800000, 2]⟩
abbrev S6400x128 : Shape := ⟨2, ![6400, 128]⟩
abbrev S6400x2 : Shape := ⟨2, ![6400, 2]⟩

abbrev nBuf : Space → Nat
  | .hbm => 65
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S1, .i32⟩
  | .hbm, ⟨18, _⟩ => ⟨S_, .i32⟩
  | .hbm, ⟨19, _⟩ => ⟨S800000x1, .i32⟩
  | .hbm, ⟨20, _⟩ => ⟨S800000x1, .i1⟩
  | .hbm, ⟨21, _⟩ => ⟨S1x1, .i32⟩
  | .hbm, ⟨22, _⟩ => ⟨S800000x1, .i32⟩
  | .hbm, ⟨23, _⟩ => ⟨S800000x1, .i1⟩
  | .hbm, ⟨24, _⟩ => ⟨S800000x1, .i1⟩
  | .hbm, ⟨25, _⟩ => ⟨S_, .i1⟩
  | .hbm, ⟨26, _⟩ => ⟨S800000, .i1⟩
  | .hbm, ⟨27, _⟩ => ⟨S800000x128, .f32⟩
  | .hbm, ⟨28, _⟩ => ⟨S800000x128, .i1⟩
  | .hbm, ⟨29, _⟩ => ⟨S_, .f32⟩
  | .hbm, ⟨30, _⟩ => ⟨S800000x128, .f32⟩
  | .hbm, ⟨31, _⟩ => ⟨S800000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S1, .i32⟩
  | .hbm, ⟨41, _⟩ => ⟨S_, .i32⟩
  | .hbm, ⟨42, _⟩ => ⟨S800000x1, .i32⟩
  | .hbm, ⟨43, _⟩ => ⟨S800000x1, .i1⟩
  | .hbm, ⟨44, _⟩ => ⟨S1x1, .i32⟩
  | .hbm, ⟨45, _⟩ => ⟨S800000x1, .i32⟩
  | .hbm, ⟨46, _⟩ => ⟨S800000x1, .i1⟩
  | .hbm, ⟨47, _⟩ => ⟨S800000x1, .i1⟩
  | .hbm, ⟨48, _⟩ => ⟨S_, .i1⟩
  | .hbm, ⟨49, _⟩ => ⟨S800000, .i1⟩
  | .hbm, ⟨50, _⟩ => ⟨S800000x128, .f32⟩
  | .hbm, ⟨51, _⟩ => ⟨S800000x128, .i1⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S128x128, .f32⟩
  | .hbm, ⟨56, _⟩ => ⟨S128x128, .bf16⟩
  | .hbm, ⟨57, _⟩ => ⟨S128x128, .f32⟩
  | .hbm, ⟨58, _⟩ => ⟨S128x128, .bf16⟩
  | .hbm, ⟨59, _⟩ => ⟨S128x128, .bf16⟩
  | .hbm, ⟨60, _⟩ => ⟨S128x2, .bf16⟩
  | .hbm, ⟨61, _⟩ => ⟨S1x128, .f32⟩
  | .hbm, ⟨62, _⟩ => ⟨S1x128, .f32⟩
  | .hbm, ⟨63, _⟩ => ⟨S1x2, .f32⟩
  | .hbm, ⟨64, _⟩ => ⟨S800000x2, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S128x2, .bf16⟩
  | .local _ .vmem, ⟨10, _⟩ => ⟨S1x2, .f32⟩
  | .local _ .vmem, ⟨11, _⟩ => ⟨S6400x2, .f32⟩
  | .local _ .vmem, ⟨12, _⟩ => ⟨S6400x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S256x128_S128x128_0_0 : S256x128.Slices ![0, 0] S128x128
  bitsLt_bf16_f32 : FTy.bits .bf16 < FTy.bits .f32
  slices_S256x128_S128x128_128_0 : S256x128.Slices ![128, 0] S128x128
  shapeCasts_S128_S1x128 : S128.ShapeCasts S1x128
  shapeCasts_S2_S1x2 : S2.ShapeCasts S1x2
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S6400x2 : S1x2.Broadcasts S6400x2
  inb_S6400x2_S6400x2_0_0 : ∀ a, (![0, 0] : Fin 2 → Nat) a + S6400x2.size a ≤ S6400x2.size a
  h_S6400x2 : 0 < S6400x2.numel
  gather_S100000x128_S800000x1_S800000x128_1_0_n_n_0_1_1128_wf : GatherDims.WF S100000x128 S800000x1 S800000x128 [1] [0] [] [0] [] 1 ![1, 128]
  dot_S6400x128_S128x128_S6400x128_1_0_0_1_n_n_wf : DotDims.WF S6400x128 S128x128 S6400x128 [1] [0] [0] [1] [] []
  dot_S6400x128_S128x2_S6400x2_1_0_0_1_n_n_wf : DotDims.WF S6400x128 S128x2 S6400x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x2.size a ≤ S128x2.size a
  hwx0_7 : ∀ i : grid0.Coords, EltTy.bits .bf16 = 32 ∨ (Rect.block (s := S128x2) S128x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x2.size a ≤ S800000x2.size a
  hwx0_9 : ∀ i : grid0.Coords, EltTy.bits .f32 = 32 ∨ (Rect.block (s := S800000x2) S6400x2.size (cc0_transform_9 i) (hinb0_9 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x2_S6400x2_1_0_0_1_n_n : DotDims S6400x128 S128x2 S6400x2 where
  lhsContracting := [1]
  rhsContracting := [0]
  lhsNonContracting := [0]
  rhsNonContracting := [1]
  lhsBatch := []
  rhsBatch := []
  wf := dot_S6400x128_S128x2_S6400x2_1_0_0_1_n_n_wf

abbrev win0_0 : Pipeline.Window sig grid0 :=
  Pipeline.Window.ofSpec (Memref.whole main_v0) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S6400x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S800000x2 : Shape := ⟨2, ![800000, 2]⟩
abbrev S1x2 : Shape := ⟨2, ![1, 2]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x256, .f32⟩
  | .hbm, ⟨28, _⟩ => ⟨S800000x128, .f32⟩
  | .hbm, ⟨29, _⟩ => ⟨S1x128, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S800000x2, .f32⟩
  | .hbm, ⟨43, _⟩ => ⟨S1x2, .f32⟩
  | .hbm, ⟨44, _⟩ => ⟨S800000x2, .f32⟩
  | .hbm, ⟨45, _⟩ => ⟨S800000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  gather_S100000x128_S800000x1_S800000x128_1_0_n_n_0_1_1128_wf : GatherDims.WF S100000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  dot_S800000x128_S128x2_S800000x2_1_0_0_1_n_n_wf : DotDims.WF S800000x128 S128x2 S800000x2 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x2_S800000x2_1_0_0_1_n_n : DotDims S800000x128 S128x2 S800000x2 where
  lhsContracting := [1]
  rhsContracting := [0]
  lhsNonContracting := [0]
  rhsNonContracting := [1]
  lhsBatch := []
  rhsBatch := []
  wf := dot_S800000x128_S128x2_S800000x2_1_0_0_1_n_n_wf

class Facts : Prop extends Facts₀ where

variable [Facts]
-- ==== Proof.EdgeScore.lean ====
/-
  The edge scorer, as mathematics over the extended reals.

  An edge is scored from the two feature rows of its endpoints, u and v, each of 128 entries.  The first dense
  layer has a 256-row weight matrix: its upper 128 rows multiply u, its lower 128 rows multiply v.  Written with the
  two halves apart, hidden unit j of the first layer is

      max ( (sum_i u_i * A_ij  +  sum_i v_i * B_ij)  +  b1_j , 0 ),

  the second layer is  max ( sum_j x_j * W2_jk + b2_k , 0 ),  and the two scores are  sum_k y_k * W3_ko + b3_o.

  The same first layer written over the concatenated row  (u, v)  of 256 entries and the whole matrix is one sum
  over 256 terms.  The two agree because a finite sum over 256 indices splits into the sum over the first 128
  and the sum over the last 128: only commutativity and associativity of addition are used, which the extended
  reals have (they form a commutative additive monoid), so no entry needs to be finite.
-/
import Idealize.ShloMosaic.PureOps.Ideal
import Mathlib.Algebra.BigOperators.Fin

noncomputable section

open scoped BigOperators

namespace EdgeScore

/-- Position `i` of the upper half of a 256-long axis. -/
def lo (i : Fin 128) : Fin 256 := ⟨i.val, by have := i.isLt; omega⟩

/-- Position `i` of the lower half of a 256-long axis. -/
def hi (i : Fin 128) : Fin 256 := ⟨128 + i.val, by have := i.isLt; omega⟩

/-- A sum over 256 positions is the sum over the upper half plus the sum over the lower half. -/
theorem sum_halves {M : Type} [AddCommMonoid M] (f : Fin 256 → M) :
    ∑ k : Fin 256, f k = ∑ i : Fin 128, f (lo i) + ∑ i : Fin 128, f (hi i) :=
  Fin.sum_univ_add (a := 128) (b := 128) f

/-- First hidden layer, the weight matrix given as its upper half `A` and its lower half `B`. -/
def hidden1 (u v : Fin 128 → EReal) (A B : Fin 128 → Fin 128 → EReal) (b1 : Fin 128 → EReal) (j : Fin 128) : EReal :=
  max ((∑ i : Fin 128, u i * A i j + ∑ i : Fin 128, v i * B i j) + b1 j) 0

/-- Second hidden layer. -/
def hidden2 (x : Fin 128 → EReal) (W2 : Fin 128 → Fin 128 → EReal) (b2 : Fin 128 → EReal) (k : Fin 128) : EReal :=
  max ((∑ j : Fin 128, x j * W2 j k) + b2 k) 0

/-- Output layer: no ramp. -/
def output (y : Fin 128 → EReal) (W3 : Fin 128 → Fin 2 → EReal) (b3 : Fin 2 → EReal) (o : Fin 2) : EReal :=
  (∑ k : Fin 128, y k * W3 k o) + b3 o

/-- The score of an edge from its endpoints' rows. -/
def score (u v : Fin 128 → EReal) (A B : Fin 128 → Fin 128 → EReal) (b1 : Fin 128 → EReal)
    (W2 : Fin 128 → Fin 128 → EReal) (b2 : Fin 128 → EReal) (W3 : Fin 128 → Fin 2 → EReal) (b3 : Fin 2 → EReal)
    (o : Fin 2) : EReal :=
  output (hidden2 (hidden1 u v A B b1) W2 b2) W3 b3 o

/-- The score depends on its nine inputs only through their values. -/
theorem score_congr {u u' v v' : Fin 128 → EReal} {A A' B B' : Fin 128 → Fin 128 → EReal} {b1 b1' : Fin 128 → EReal}
    {W2 W2' : Fin 128 → Fin 128 → EReal} {b2 b2' : Fin 128 → EReal} {W3 W3' : Fin 128 → Fin 2 → EReal} {b3 b3' : Fin 2 → EReal}
    (hu : ∀ f, u f = u' f) (hv : ∀ f, v f = v' f) (hA : ∀ i j, A i j = A' i j) (hB : ∀ i j, B i j = B' i j)
    (hb1 : ∀ j, b1 j = b1' j) (hW2 : ∀ j k, W2 j k = W2' j k) (hb2 : ∀ k, b2 k = b2' k) (hW3 : ∀ k o, W3 k o = W3' k o)
    (hb3 : ∀ o, b3 o = b3' o) (o : Fin 2) :
    score u v A B b1 W2 b2 W3 b3 o = score u' v' A' B' b1' W2' b2' W3' b3' o := by
  obtain rfl : u = u' := funext hu
  obtain rfl : v = v' := funext hv
  obtain rfl : A = A' := funext fun i => funext fun j => hA i j
  obtain rfl : B = B' := funext fun i => funext fun j => hB i j
  obtain rfl : b1 = b1' := funext hb1
  obtain rfl : W2 = W2' := funext fun j => funext fun k => hW2 j k
  obtain rfl : b2 = b2' := funext hb2
  obtain rfl : W3 = W3' := funext fun k => funext fun o => hW3 k o
  obtain rfl : b3 = b3' := funext hb3
  rfl

/-- The first layer over the concatenated row: when `x` is `u` on the upper half and `v` on the lower half, the one
    sum over 256 terms against the whole matrix `W` is the two half sums. -/
theorem concat_layer (x : Fin 256 → EReal) (u v : Fin 128 → EReal) (W : Fin 256 → Fin 128 → EReal) (j : Fin 128)
    (hu : ∀ i, x (lo i) = u i) (hv : ∀ i, x (hi i) = v i) :
    ∑ k : Fin 256, x k * W k j = ∑ i : Fin 128, u i * W (lo i) j + ∑ i : Fin 128, v i * W (hi i) j := by
  rw [sum_halves]
  simp only [hu, hv]

end EdgeScore

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.BodyScore.lean ====
/-
  What the kernel body computes for one block of edges, read at one element.

  The body takes a block of 6400 rows of each endpoint's gathered features, the two halves of the first weight
  matrix, the other two weight matrices and the three biases (each bias as a one-row matrix), and computes three
  dense layers.  A change of float format is the identity on the extended reals, a matrix product into a zero
  accumulator is the plain contraction sum, a one-row bias broadcast along the rows reads its column, and the ramp is
  `max · 0` entrywise.  So the last matrix product at row `r`, column `o` is the sum over `k` of the second hidden
  layer of row `r` (`EdgeScore.hidden2` over `EdgeScore.hidden1` of the two rows) times the last matrix's entry
  `(k, o)`: every entry of row `r` of the result depends on row `r` of the two feature blocks only.
-/
import proofs.«420651_j15960098471964_1_alg».proof.Proof.Gen.KernelIdeal.Skeleton
import proofs.«420651_j15960098471964_1_alg».proof.Proof.EdgeScore
import proofs.«420651_j15960098471964_1_alg».proof.Proof.LibPlainDot
import Idealize.ShloMosaic.PureOps.Ideal.Laws
import Idealize.ShloMosaic.Lib.ValueIdx
import Idealize.ShloMosaic.Lib.Pipeline.Value

noncomputable section

open scoped BigOperators

namespace Cert.KernelIdeal.BodyScore

open Cert.KernelIdeal Cert.KernelIdeal.Gen Idealize.ShloMosaic Idealize.ShloMosaic.ValueIdx EdgeScore

/-- A product of an [R, K] matrix with a [K, C] matrix into the zero accumulator, at `(p, q)`, is
    `∑ k < K, l (p, k) * r (k, q)`. -/
theorem matmul_zero_apply {R K C : Nat} {φ₁ φ₂ : FTy} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) :=
  (Ideal.matmul_constant_zero_apply d prec l r (ix2 p q)).trans
    (PlainDot.sum_eq (M := EReal) d hlb hln hlc hrb hrn hrc l r p q)

/-- The two 6400 × 128 by 128 × 128 products of the body. -/
theorem mm128 (l : FVec Ideal S6400x128 .bf16) (r : FVec Ideal S128x128 .bf16) (p : Fin 6400) (q : Fin 128) :
    FloatOps.matmul dot_S6400x128_S128x128_S6400x128_1_0_0_1_n_n none l r (constant S6400x128 .f32 0x00000000#32) (ix2 p q)
      = ∑ k : Fin 128, l (ix2 p k) * r (ix2 k q) :=
  matmul_zero_apply dot_S6400x128_S128x128_S6400x128_1_0_0_1_n_n rfl rfl rfl rfl rfl rfl none l r p q

/-- The 6400 × 128 by 128 × 2 product of the body. -/
theorem mm2 (l : FVec Ideal S6400x128 .bf16) (r : FVec Ideal S128x2 .bf16) (p : Fin 6400) (q : Fin 2) :
    FloatOps.matmul dot_S6400x128_S128x2_S6400x2_1_0_0_1_n_n none l r (constant S6400x2 .f32 0x00000000#32) (ix2 p q)
      = ∑ k : Fin 128, l (ix2 p k) * r (ix2 k q) :=
  matmul_zero_apply dot_S6400x128_S128x2_S6400x2_1_0_0_1_n_n rfl rfl rfl rfl rfl rfl none l r p q

/-- A one-row bias broadcast along the 6400 rows reads its column. -/
theorem bias_apply (b : FVec Ideal S1x128 .f32) (r : Fin 6400) (j : Fin 128) :
    broadcastTo S6400x128 b broadcasts_S1x128_S6400x128 (ix2 r j) = b (ix2 (0 : Fin 1) j) :=
  broadcastTo_apply b broadcasts_S1x128_S6400x128 (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])

variable (P0 P1 : Vec Ideal S6400x128 .f32) (P2 P3 : Vec Ideal S128x128 .bf16) (P4 : Vec Ideal S1x128 .f32)
  (P5 : Vec Ideal S128x128 .bf16) (P6 : Vec Ideal S1x128 .f32) (P7 : Vec Ideal S128x2 .bf16)

/-- The body's last matrix product at row `r`, column `o`. -/
theorem pay2_apply (r : Fin 6400) (o : Fin 2) :
    k0_pay2 (F := Ideal) P0 P1 P2 P3 P4 P5 P6 P7 (ix2 r o)
      = ∑ k : Fin 128,
          hidden2 (hidden1 (fun f => P0 (ix2 r f)) (fun f => P1 (ix2 r f)) (fun i j => P2 (ix2 i j)) (fun i j => P3 (ix2 i j))
              (fun j => P4 (ix2 (0 : Fin 1) j))) (fun j k => P5 (ix2 j k)) (fun k => P6 (ix2 (0 : Fin 1) k)) k
            * P7 (ix2 k o) := by
  unfold k0_pay2
  simp only [matmul, shapeCast_self, mm2, mm128, truncf_apply, maximumf_apply, addf_apply, bias_apply, broadcast_apply,
    hidden1, hidden2, Ideal.ofBits_def, Ideal.ofBits_zero_f32]

/-- The output bias, a one-row matrix broadcast along the 6400 rows, reads its column. -/
theorem bias2_apply (b : FVec Ideal S1x2 .f32) (r : Fin 6400) (o : Fin 2) :
    broadcastTo S6400x2 b broadcasts_S1x2_S6400x2 (ix2 r o) = b (ix2 (0 : Fin 1) o) :=
  broadcastTo_apply b broadcasts_S1x2_S6400x2 (ix2 r o) (ix2 (0 : Fin 1) o) (fun a => match a with
    | ⟨0, _⟩ => by show 0 = if (1 : Nat) = 1 then 0 else r.val; rw [if_pos rfl]
    | ⟨1, _⟩ => by show o.val = if (2 : Nat) = 1 then 0 else o.val; rw [if_neg (by decide)])

/-- What the body stores, at row `r` and score `o` of the block: the edge score of row `r` of the two feature
    blocks. -/
theorem block_apply (P8 : Vec Ideal S1x2 .f32) (r : Fin 6400) (o : Fin 2) :
    k0_pay1 (F := Ideal) (k0_pay2 P0 P1 P2 P3 P4 P5 P6 P7) (k0_pay3 P8) (ix2 r o)
      = score (fun f => P0 (ix2 r f)) (fun f => P1 (ix2 r f)) (fun i j => P2 (ix2 i j)) (fun i j => P3 (ix2 i j))
          (fun j => P4 (ix2 (0 : Fin 1) j)) (fun j k => P5 (ix2 j k)) (fun k => P6 (ix2 (0 : Fin 1) k))
          (fun k o => P7 (ix2 k o)) (fun o => P8 (ix2 (0 : Fin 1) o)) o := by
  unfold k0_pay1 k0_pay3
  simp only [shapeCast_self, addf_apply, bias2_apply]
  rw [pay2_apply]
  rfl

/-- The same at any index of the block. -/
theorem block_at (P8 : Vec Ideal S1x2 .f32) (y : S6400x2.Idx) :
    k0_pay1 (F := Ideal) (k0_pay2 P0 P1 P2 P3 P4 P5 P6 P7) (k0_pay3 P8) y
      = score (fun f => P0 (ix2 (y 0) f)) (fun f => P1 (ix2 (y 0) f)) (fun i j => P2 (ix2 i j)) (fun i j => P3 (ix2 i j))
          (fun j => P4 (ix2 (0 : Fin 1) j)) (fun j k => P5 (ix2 j k)) (fun k => P6 (ix2 (0 : Fin 1) k))
          (fun k o => P7 (ix2 k o)) (fun o => P8 (ix2 (0 : Fin 1) o)) (y 1) := by
  obtain ⟨r, o, rfl⟩ : ∃ (r : Fin 6400) (o : Fin 2), y = ix2 r o := ⟨y 0, y 1, eq_ix2 y⟩
  exact block_apply P0 P1 P2 P3 P4 P5 P6 P7 P8 r o

end Cert.KernelIdeal.BodyScore

end
-- ==== Proof.KernelBlocks.lean ====
/-
  The score array as one function of the arrays the launch finds, and each window's block read at an element.

  After the kernel's run the score array holds, at edge `e` and score `o`, the edge score of rows `e` of the two
  gathered-feature arrays, against the weight and bias arrays as the launch finds them (proved in the next module).

  The grid has 125 points.  Point `t` works on rows 6400 t … 6400 t + 6399 of the two feature arrays and of the
  score array, and on the whole of every weight and bias array (their block index is 0 at every point).  The body's
  result at row `r` of its block depends on row `r` of the two feature blocks only, so what point `t` writes back is
  block `t` of one function of the whole arrays; the 125 blocks of 6400 rows tile the 800000 rows, the block of row
  `e` being number `e / 6400`.
-/
import proofs.«420651_j15960098471964_1_alg».proof.Proof.Gen.KernelIdeal.Value
import proofs.«420651_j15960098471964_1_alg».proof.Proof.BodyScore

noncomputable section

namespace Cert.KernelIdeal.KernelBlocks

open Cert.KernelIdeal Cert.KernelIdeal.Gen Cert.KernelIdeal.Value Cert.KernelIdeal.BodyScore
open Idealize.ShloMosaic Idealize.ShloMosaic.TcCoe Idealize.SL.Sem Idealize.ShloMosaic.ValueIdx EdgeScore
open Idealize.ShloMosaic.Pipeline (Dat)

variable (m : (ℓ : Loc nD τ sig) → Buf (Elt Ideal) ℓ) (ρ : Dev nD → PrngReg)

/-! The arrays the launch finds, each at its literal type. -/

abbrev featU (c : Dev nD) : FVec Ideal S800000x128 .f32 := V m c main_v0
abbrev featV (c : Dev nD) : FVec Ideal S800000x128 .f32 := V m c main_v1
abbrev w1a (c : Dev nD) : FVec Ideal S128x128 .bf16 := V m c main_v3
abbrev w1b (c : Dev nD) : FVec Ideal S128x128 .bf16 := V m c main_v5
abbrev bias1 (c : Dev nD) : FVec Ideal S1x128 .f32 := V m c main_v8
abbrev w2 (c : Dev nD) : FVec Ideal S128x128 .bf16 := V m c main_v6
abbrev bias2 (c : Dev nD) : FVec Ideal S1x128 .f32 := V m c main_v9
abbrev w3 (c : Dev nD) : FVec Ideal S128x2 .bf16 := V m c main_v7
abbrev bias3 (c : Dev nD) : FVec Ideal S1x2 .f32 := V m c main_v10

/-- The score of edge `e` from those arrays. -/
def edge (c : Dev nD) (e : Fin 800000) (o : Fin 2) : EReal :=
  score (fun f => featU m c (ix2 e f)) (fun f => featV m c (ix2 e f)) (fun i j => w1a m c (ix2 i j)) (fun i j => w1b m c (ix2 i j))
    (fun j => bias1 m c (ix2 (0 : Fin 1) j)) (fun j k => w2 m c (ix2 j k)) (fun k => bias2 m c (ix2 (0 : Fin 1) k))
    (fun k o => w3 m c (ix2 k o)) (fun o => bias3 m c (ix2 (0 : Fin 1) o)) o

/-- The whole score array. -/
def scores (c : Dev nD) : FVec Ideal S800000x2 .f32 := fun i => edge m c (i 0) (i 1)

theorem origin : (![0, 0] : Fin 2 → Nat) = fun _ => 0 := funext fun a => by fin_cases a <;> rfl

/-- The printed index maps over the grid: the feature windows and the score window are at block `(t, 0)`, every weight
    and bias window at block `(0, 0)`. -/
theorem index_maps : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! A block's element sits at block index × block size + its coordinate inside the block.  Each read is stated for any
    array of the window's type; the arrays the launch finds are instances. -/

theorem blk0_apply (A : FVec Ideal S800000x128 .f32) (t : Fin cfg0.N) (r : Fin 6400) (f : Fin 128) (e : Fin 800000) (he : e.val = t.val * 6400 + r.val) :
    ((cfg0.win 0).blk t).view.read (Elt Ideal) A (ix2 r f) = A (ix2 e f) := by
  obtain ⟨-, -, u0, u1, -⟩ := index_maps t
  show A (((cfg0.win 0).blk t).view.emb (ix2 r f)) = A (ix2 e f)
  refine congrArg A (funext fun a => Fin.ext ?_)
  match a with
  | ⟨0, _⟩ => show win0_0.index t (0 : Fin 2) * 6400 + 1 * r.val = e.val; omega
  | ⟨1, _⟩ => show win0_0.index t (1 : Fin 2) * 128 + 1 * f.val = f.val; omega

theorem read_featU (c : Dev nD) (t : Fin cfg0.N) (r : Fin 6400) (f : Fin 128) (e : Fin 800000) (he : e.val = t.val * 6400 + r.val) :
    iblk m c 0 t (ix2 r f) = featU m c (ix2 e f) :=
  blk0_apply (featU m c) t r f e he

theorem blk1_apply (A : FVec Ideal S800000x128 .f32) (t : Fin cfg0.N) (r : Fin 6400) (f : Fin 128) (e : Fin 800000) (he : e.val = t.val * 6400 + r.val) :
    ((cfg0.win 1).blk t).view.read (Elt Ideal) A (ix2 r f) = A (ix2 e f) := by
  obtain ⟨-, -, -, -, u0, u1, -⟩ := index_maps t
  show A (((cfg0.win 1).blk t).view.emb (ix2 r f)) = A (ix2 e f)
  refine congrArg A (funext fun a => Fin.ext ?_)
  match a with
  | ⟨0, _⟩ => show win0_1.index t (0 : Fin 2) * 6400 + 1 * r.val = e.val; omega
  | ⟨1, _⟩ => show win0_1.index t (1 : Fin 2) * 128 + 1 * f.val = f.val; omega

theorem read_featV (c : Dev nD) (t : Fin cfg0.N) (r : Fin 6400) (f : Fin 128) (e : Fin 800000) (he : e.val = t.val * 6400 + r.val) :
    iblk m c 1 t (ix2 r f) = featV m c (ix2 e f) :=
  blk1_apply (featV m c) t r f e he

theorem blk2_apply (A : FVec Ideal S128x128 .bf16) (t : Fin cfg0.N) (i : Fin 128) (j : Fin 128) :
    ((cfg0.win 2).blk t).view.read (Elt Ideal) A (ix2 i j) = A (ix2 i j) := by
  obtain ⟨-, -, -, -, -, -, u0, u1, -⟩ := index_maps t
  show A (((cfg0.win 2).blk t).view.emb (ix2 i j)) = A (ix2 i j)
  refine congrArg A (funext fun a => Fin.ext ?_)
  match a with
  | ⟨0, _⟩ => show win0_2.index t (0 : Fin 2) * 128 + 1 * i.val = i.val; omega
  | ⟨1, _⟩ => show win0_2.index t (1 : Fin 2) * 128 + 1 * j.val = j.val; omega

theorem read_w1a (c : Dev nD) (t : Fin cfg0.N) (i : Fin 128) (j : Fin 128) : iblk m c 2 t (ix2 i j) = w1a m c (ix2 i j) :=
  blk2_apply (w1a m c) t i j

theorem blk3_apply (A : FVec Ideal S128x128 .bf16) (t : Fin cfg0.N) (i : Fin 128) (j : Fin 128) :
    ((cfg0.win 3).blk t).view.read (Elt Ideal) A (ix2 i j) = A (ix2 i j) := by
  obtain ⟨-, -, -, -, -, -, -, -, u0, u1, -⟩ := index_maps t
  show A (((cfg0.win 3).blk t).view.emb (ix2 i j)) = A (ix2 i j)
  refine congrArg A (funext fun a => Fin.ext ?_)
  match a with
  | ⟨0, _⟩ => show win0_3.index t (0 : Fin 2) * 128 + 1 * i.val = i.val; omega
  | ⟨1, _⟩ => show win0_3.index t (1 : Fin 2) * 128 + 1 * j.val = j.val; omega

theorem read_w1b (c : Dev nD) (t : Fin cfg0.N) (i : Fin 128) (j : Fin 128) : iblk m c 3 t (ix2 i j) = w1b m c (ix2 i j) :=
  blk3_apply (w1b m c) t i j

theorem blk4_apply (A : FVec Ideal S1x128 .f32) (t : Fin cfg0.N) (j : Fin 128) :
    ((cfg0.win 4).blk t).view.read (Elt Ideal) A (ix2 (0 : Fin 1) j) = A (ix2 (0 : Fin 1) j) := by
  obtain ⟨-, -, -, -, -, -, -, -, -, -, u0, u1, -⟩ := index_maps t
  show A (((cfg0.win 4).blk t).view.emb (ix2 (0 : Fin 1) j)) = A (ix2 (0 : Fin 1) j)
  refine congrArg A (funext fun a => Fin.ext ?_)
  match a with
  | ⟨0, _⟩ => show win0_4.index t (0 : Fin 2) * 1 + 1 * 0 = 0; omega
  | ⟨1, _⟩ => show win0_4.index t (1 : Fin 2) * 128 + 1 * j.val = j.val; omega

theorem read_bias1 (c : Dev nD) (t : Fin cfg0.N) (j : Fin 128) : iblk m c 4 t (ix2 (0 : Fin 1) j) = bias1 m c (ix2 (0 : Fin 1) j) :=
  blk4_apply (bias1 m c) t j

theorem blk5_apply (A : FVec Ideal S128x128 .bf16) (t : Fin cfg0.N) (i : Fin 128) (j : Fin 128) :
    ((cfg0.win 5).blk t).view.read (Elt Ideal) A (ix2 i j) = A (ix2 i j) := by
  obtain ⟨-, -, -, -, -, -, -, -, -, -, -, -, u0, u1, -⟩ := index_maps t
  show A (((cfg0.win 5).blk t).view.emb (ix2 i j)) = A (ix2 i j)
  refine congrArg A (funext fun a => Fin.ext ?_)
  match a with
  | ⟨0, _⟩ => show win0_5.index t (0 : Fin 2) * 128 + 1 * i.val = i.val; omega
  | ⟨1, _⟩ => show win0_5.index t (1 : Fin 2) * 128 + 1 * j.val = j.val; omega

theorem read_w2 (c : Dev nD) (t : Fin cfg0.N) (i : Fin 128) (j : Fin 128) : iblk m c 5 t (ix2 i j) = w2 m c (ix2 i j) :=
  blk5_apply (w2 m c) t i j

theorem blk6_apply (A : FVec Ideal S1x128 .f32) (t : Fin cfg0.N) (j : Fin 128) :
    ((cfg0.win 6).blk t).view.read (Elt Ideal) A (ix2 (0 : Fin 1) j) = A (ix2 (0 : Fin 1) j) := by
  obtain ⟨-, -, -, -, -, -, -, -, -, -, -, -, -, -, u0, u1, -⟩ := index_maps t
  show A (((cfg0.win 6).blk t).view.emb (ix2 (0 : Fin 1) j)) = A (ix2 (0 : Fin 1) j)
  refine congrArg A (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

theorem read_bias2 (c : Dev nD) (t : Fin cfg0.N) (j : Fin 128) : iblk m c 6 t (ix2 (0 : Fin 1) j) = bias2 m c (ix2 (0 : Fin 1) j) :=
  blk6_apply (bias2 m c) t j

theorem blk7_apply (A : FVec Ideal S128x2 .bf16) (t : Fin cfg0.N) (i : Fin 128) (j : Fin 2) :
    ((cfg0.win 7).blk t).view.read (Elt Ideal) A (ix2 i j) = A (ix2 i j) := by
  obtain ⟨-, -, -, -, -, -, -, -, -, -, -, -, -, -, -, -, u0, u1, -⟩ := index_maps t
  show A (((cfg0.win 7).blk t).view.emb (ix2 i j)) = A (ix2 i j)
  refine congrArg A (funext fun a => Fin.ext ?_)
  match a with
  | ⟨0, _⟩ => show win0_7.index t (0 : Fin 2) * 128 + 1 * i.val = i.val; omega
  | ⟨1, _⟩ => show win0_7.index t (1 : Fin 2) * 2 + 1 * j.val = j.val; omega

theorem read_w3 (c : Dev nD) (t : Fin cfg0.N) (i : Fin 128) (j : Fin 2) : iblk m c 7 t (ix2 i j) = w3 m c (ix2 i j) :=
  blk7_apply (w3 m c) t i j

theorem blk8_apply (A : FVec Ideal S1x2 .f32) (t : Fin cfg0.N) (j : Fin 2) :
    ((cfg0.win 8).blk t).view.read (Elt Ideal) A (ix2 (0 : Fin 1) j) = A (ix2 (0 : Fin 1) j) := by
  obtain ⟨-, -, -, -, -, -, -, -, -, -, -, -, -, -, -, -, -, -, u0, u1⟩ := index_maps t
  show A (((cfg0.win 8).blk t).view.emb (ix2 (0 : Fin 1) j)) = A (ix2 (0 : Fin 1) j)
  refine congrArg A (funext fun a => Fin.ext ?_)
  match a with
  | ⟨0, _⟩ => show win0_8.index t (0 : Fin 2) * 1 + 1 * 0 = 0; omega
  | ⟨1, _⟩ => show win0_8.index t (1 : Fin 2) * 2 + 1 * j.val = j.val; omega

theorem read_bias3 (c : Dev nD) (t : Fin cfg0.N) (j : Fin 2) : iblk m c 8 t (ix2 (0 : Fin 1) j) = bias3 m c (ix2 (0 : Fin 1) j) :=
  blk8_apply (bias3 m c) t j

/-- The score window: element `y` of point `t`'s block sits at row `6400 t + y₀`, score `y₁`. -/
theorem blk9_apply (A : FVec Ideal S800000x2 .f32) (t : Fin cfg0.N) (y : ((cfg0.win 9).xblock (cfg0.grid.coords t)).Idx)
    (e : Fin 800000) (o : Fin 2) (he : e.val = t.val * 6400 + (y 0).val) (ho : o.val = (y 1).val) :
    ((cfg0.win 9).blk t).view.read (Elt Ideal) A y = A (ix2 e o) := by
  obtain ⟨u0, u1, -⟩ := index_maps t
  show A (((cfg0.win 9).blk t).view.emb y) = A (ix2 e o)
  refine congrArg A (funext fun a => Fin.ext ?_)
  match a with
  | ⟨0, _⟩ => show win0_9.index t (0 : Fin 2) * 6400 + 1 * (y 0).val = e.val; omega
  | ⟨1, _⟩ => show win0_9.index t (1 : Fin 2) * 2 + 1 * (y 1).val = o.val; omega

theorem scores_apply (c : Dev nD) (e : Fin 800000) (o : Fin 2) : scores m c (ix2 e o) = edge m c e o := rfl

end Cert.KernelIdeal.KernelBlocks

end
-- ==== Proof.KernelArray.lean ====
/-
  The score array after the kernel's run.

  What grid point `t` writes back is block `t` (rows 6400 t … 6400 t + 6399) of the one function `scores` of the arrays
  the launch finds: the body's result at row `r` of its block is the edge score of row `r` of the two feature blocks,
  which are rows 6400 t + r of the two feature arrays, and every weight and bias block is its whole array.  The 125
  blocks tile the 800000 rows (row `e` is in block `e / 6400`), so the array ends holding `scores`.
-/
import proofs.«420651_j15960098471964_1_alg».proof.Proof.KernelBlocks

noncomputable section

namespace Cert.KernelIdeal.KernelArray

open Cert.KernelIdeal Cert.KernelIdeal.Gen Cert.KernelIdeal.Value Cert.KernelIdeal.BodyScore Cert.KernelIdeal.KernelBlocks
open Idealize.ShloMosaic Idealize.ShloMosaic.TcCoe Idealize.SL.Sem Idealize.ShloMosaic.ValueIdx EdgeScore
open Idealize.ShloMosaic.Pipeline (Dat)

variable (m : (ℓ : Loc nD τ sig) → Buf (Elt Ideal) ℓ) (ρ : Dev nD → PrngReg)

/-- What point `t` writes back is block `t` of `scores`. -/
theorem flushed_eq (c : Dev nD) (t : Fin cfg0.N) :
    (dats m 0 c).flushed 9 t = ((cfg0.win 9).blk t).view.read (Elt Ideal) (scores m c) := by
  rw [flushed9]
  unfold out0_9
  rw [View.canon_unit_zero origin]
  simp only [View.ld_unit_zero (S := S6400x128) origin, View.ld_unit_zero (S := S128x128) origin,
    View.ld_unit_zero (S := S1x128) origin, View.ld_unit_zero (S := S128x2) origin, View.ld_unit_zero (S := S1x2) origin]
  funext y
  have hN : cfg0.N = 125 := N_0
  have ht : t.val < cfg0.N := t.isLt
  have hy0 : (y 0).val < 6400 := (y 0).isLt
  have hy1 : (y 1).val < 2 := (y 1).isLt
  -- the body's result at the block index under `y`: the edge score of that row of the two feature blocks
  refine (block_at (iblk m c 0 t) (iblk m c 1 t) (iblk m c 2 t) (iblk m c 3 t) (iblk m c 4 t) (iblk m c 5 t)
    (iblk m c 6 t) (iblk m c 7 t) (iblk m c 8 t) ((cfg0.win 9).xinj (grid0.coords t) y)).trans ?_
  -- each block read where it sits in its array
  refine (score_congr
    (fun f => read_featU m c t ⟨(y 0).val, hy0⟩ f (⟨t.val * 6400 + (y 0).val, by omega⟩ : Fin 800000) rfl)
    (fun f => read_featV m c t ⟨(y 0).val, hy0⟩ f (⟨t.val * 6400 + (y 0).val, by omega⟩ : Fin 800000) rfl)
    (fun i j => read_w1a m c t i j) (fun i j => read_w1b m c t i j) (fun j => read_bias1 m c t j)
    (fun j k => read_w2 m c t j k) (fun k => read_bias2 m c t k) (fun k o => read_w3 m c t k o)
    (fun o => read_bias3 m c t o) (⟨(y 1).val, hy1⟩ : Fin 2)).trans ?_
  -- which is `scores` at the array index of `y`
  exact ((blk9_apply (scores m c) t y (⟨t.val * 6400 + (y 0).val, by omega⟩ : Fin 800000) (⟨(y 1).val, hy1⟩ : Fin 2) rfl rfl).trans
    (scores_apply m c _ _)).symm

/-- An index of the score array is in point `t`'s block iff each coordinate is in the block's range on its axis. -/
theorem mem_blk (t : Fin cfg0.N) (i : S800000x2.Idx) :
    i ∈ ((cfg0.win 9).blk t).view.set ↔ ∀ a : Fin 2, win0_9.index t a * S6400x2.size a ≤ (i a).val
      ∧ (i a).val < win0_9.index t a * S6400x2.size a + S6400x2.size a := by
  show i ∈ ((View.whole main_v11).slice (win0_9.rect t)).set ↔ _
  rw [View.set_slice_whole, Rect.mem_set_unit]
  exact Iff.rfl

/-- Every block of the 125 is some point's. -/
theorem point_of_block : ∀ q : Fin 125, ∃ t : Fin cfg0.N, win0_9.index t = ![q.val, 0] :=
  (by decide +kernel : ∀ q : Fin 125, ∃ t : Fin grid0.N, win0_9.index t = ![q.val, 0])

/-- The blocks tile the array: row `e` is in block `e / 6400`. -/
theorem cover (i : S800000x2.Idx) : ∃ t : Fin cfg0.N, (cfg0.win 9).flush t = true ∧ i ∈ ((cfg0.win 9).blk t).view.set := by
  have hi0 : (i 0).val < 800000 := (i 0).isLt
  have hi1 : (i 1).val < 2 := (i 1).isLt
  obtain ⟨t, ht⟩ := point_of_block ⟨(i 0).val / 6400, by omega⟩
  have q0 : win0_9.index t (0 : Fin 2) = (i 0).val / 6400 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 6400 ≤ (i 0).val ∧ (i 0).val < win0_9.index t (0 : Fin 2) * 6400 + 6400; omega
  | ⟨1, _⟩ => show win0_9.index t (1 : Fin 2) * 2 ≤ (i 1).val ∧ (i 1).val < win0_9.index t (1 : Fin 2) * 2 + 2; omega

/-- The score array after the run. -/
theorem final (c : Dev nD) : (dats m 0 c).arrAt 9 cfg0.N = scores m c :=
  (dats m 0 c).arrAt_eq_of_cover 9 (scores m c) (fun t _ => flushed_eq m c t) cover

/-- The kernel's run: the score array ends at `scores`, the arguments unchanged. -/
theorem run : θ_run defs (onTc (τ := τ) (main (F := Ideal))) ⟨m, fun _ => 0, ρ⟩ fun r => ∀ c : Dev nD,
      r.2.mem ((c : Thread nD τ).loc main_v11) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.KernelArray

end
-- ==== Proof.IndexWrap.lean ====
/-
  A row index with Python's wrap-around, as 32-bit signed arithmetic.

  An index `x` into an axis of 100000 rows may be written from the end: `x` in [-100000, -1] means row
  `x + 100000`.  Both programs normalise an index this way before they use it: `x + 100000` if `x < 0`, else `x`.
  For `x` in [-100000, 100000) the normalised index lies in [0, 99999]: a negative `x` is at least -100000, so
  the sum is in [0, 99999] and does not wrap around 2^32; a non-negative `x` is kept and is below 100000.
-/
import Idealize.ShloMosaic.Lib.Affine
import Idealize.ShloMosaic.Lib.ValueIdx

namespace IndexWrap

open Idealize.ShloMosaic

theorem toInt_zero : (0#32 : BitVec 32).toInt = 0 := by decide
theorem toInt_last : (99999#32 : BitVec 32).toInt = 99999 := by decide
theorem toInt_extent : (100000#32 : BitVec 32).toInt = 100000 := by decide
theorem toInt_neg_extent : (4294867296#32 : BitVec 32).toInt = -100000 := by decide

/-- Adding the extent to a negative index no smaller than its negative does not wrap. -/
theorem add_extent (x : BitVec 32) (h1 : (-100000 : Int) ≤ x.toInt) (h2 : x.toInt < 0) :
    (x + 100000#32).toInt = x.toInt + 100000 := by
  rw [BitVec.toInt_add, toInt_extent]
  have : (2:Int)^32 = 4294967296 := by norm_num
  rw [Int.bmod_def]
  split <;> omega

/-- The normalised index: `x + 100000` when `x` is negative, `x` otherwise. -/
def norm (x : BitVec 32) : BitVec 32 := Scalar.select (IntOp.cmpi .slt x 0#32) (IntOp.addi x 100000#32) x

/-- For `x` in [-100000, 100000) the normalised index is in [0, 99999]. -/
theorem norm_in_range (x : BitVec 32) (h1 : (-100000 : Int) ≤ x.toInt) (h2 : x.toInt < 100000) :
    0 ≤ (norm x).toInt ∧ (norm x).toInt ≤ 99999 := by
  unfold norm
  by_cases hneg : x.toInt < 0
  · have hc : IntOp.cmpi .slt x 0#32 = 1#1 := IntOp.cmpi_slt.2 (by rw [toInt_zero]; exact hneg)
    rw [hc, ValueIdx.select_one]
    show 0 ≤ (x + 100000#32).toInt ∧ (x + 100000#32).toInt ≤ 99999
    rw [add_extent x h1 hneg]
    omega
  · have hc : IntOp.cmpi .slt x 0#32 = 0#1 := by
      rcases BitVec.eq_zero_or_eq_one (IntOp.cmpi .slt x 0#32) with h | h
      · exact h
      · exact absurd (by have := IntOp.cmpi_slt.1 h; rwa [toInt_zero] at this) hneg
    rw [hc, ValueIdx.select_zero]
    omega

/-- So both of the bounds tests a guarded gather makes on the normalised index succeed. -/
theorem norm_tests (x : BitVec 32) (h1 : (-100000 : Int) ≤ x.toInt) (h2 : x.toInt < 100000) :
    IntOp.andi (IntOp.cmpi .sge (norm x) 0#32) (IntOp.cmpi .sle (norm x) 99999#32) = 1#1 := by
  obtain ⟨a, b⟩ := norm_in_range x h1 h2
  exact IntOp.andi_eq_one.2 ⟨IntOp.cmpi_sge.2 (by rw [toInt_zero]; exact a), IntOp.cmpi_sle.2 (by rw [toInt_last]; exact b)⟩

end IndexWrap
-- ==== Proof.LibAndReduce.lean ====
/-
  An `and`-reduction of one-bit words that are all 1, from the initial word 1, is 1.

  The library reads a printed `jnp.all` in one direction (`Host.reduce_andi_eq_one`: the result is 1, so every
  word that reduces into it is 1).  This is the other direction, for a mask a program computes and a proof must
  show to be all ones: a left fold by `and` from 1 over words that are all 1 stays 1.  Stated for any shapes and
  axes.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl =>
    foldl_andi_of_all f l _ (andi_eq_one.2 ⟨h, hl a (List.mem_cons_self ..)⟩) (fun n hn => hl n (List.mem_cons_of_mem _ hn))

end IntOp

namespace Host

variable {s t u : Shape} {axes : List (Fin s.rank)}

/-- A `stablehlo.reduce` by `and` from the initial word 1 of an operand that is 1 everywhere is 1 at every index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit (fun i _ => hx i)

end Host

end Idealize.ShloMosaic
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.HostArrays.lean ====
/-
  The arrays the kernel's launch finds, as functions of the program's arguments.

  Before the launch the program prepares nine arrays on the host.

  * Two feature arrays, one per endpoint: row `e` is the row of the node table that edge `e`'s index names.  The
    index is first normalised (a negative index counts from the end), the row at the normalised index is gathered,
    and then a guard replaces the whole row by a fill word wherever the normalised index is outside [0, 99999].
    When every index lies in [-100000, 100000) the normalised index is always inside (`IndexWrap.norm_tests`), the
    guard's mask is 1 everywhere, and the guarded array is the gathered array itself.
  * The upper and the lower 128 rows of the first weight matrix, and the other two weight matrices, each changed to
    a narrower float format: at the extended reals that change is the identity, so an entry of the upper half is the
    matrix's entry at the same position, an entry of the lower half the entry 128 rows further down.
  * The three biases reshaped from a vector to a one-row matrix: column `j` of the row is entry `j`.
-/
import proofs.«420651_j15960098471964_1_alg».proof.Proof.Gen.KernelIdeal.Frame
import proofs.«420651_j15960098471964_1_alg».proof.Proof.IndexWrap
import proofs.«420651_j15960098471964_1_alg».proof.Proof.LibAndReduce
import proofs.«420651_j15960098471964_1_alg».proof.Proof.EdgeScore
import proofs.«420651_j15960098471964_1_alg».proof.Proof.LibTypedRef
import Idealize.ShloMosaic.Lib.StableHlo.Run
import Idealize.ShloMosaic.Lib.Pipeline.Value
import Idealize.ShloMosaic.Lib.ValueIdx

noncomputable section

namespace Cert.KernelIdeal.HostArrays

open Cert.KernelIdeal Cert.KernelIdeal.Gen Idealize.ShloMosaic Idealize.ShloMosaic.TcCoe Idealize.ShloMosaic.StableHlo
open Idealize.ShloMosaic.ValueIdx EdgeScore

variable {F : FTy → Type} [FloatOps F]

/-! ## The guarded gather -/

/-- The normalised indices, as the one-column array the gather takes. -/
def indexColumn (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 100000#32))) s)

/-- The guard's mask: 1 at an edge whose normalised index is in [0, 99999]. -/
def inBounds (s : IVec S800000 32) : IVec S800000 1 :=
  Host.reduce IntOp.andi
    (andi (cmpi .sge (indexColumn s) (broadcastInDim S800000x1 ![] bcast_S_S800000x1 (constantI S_ 32 0#32)))
      (cmpi .sle (indexColumn s)
        (broadcastInDim S800000x1 ![0, 1] bcast_S1x1_S800000x1_0_1 (broadcastInDim S1x1 ![1] bcast_S1_S1x1_1 (constantI S1 32 99999#32)))))
    (constantI S_ 1 1#1) reducesTo_S800000x1_S800000_d1 h_S_

/-- The rows gathered at the normalised indices. -/
def gathered (h : FVec F S100000x128 .f32) (s : IVec S800000 32) : FVec F S800000x128 .f32 :=
  Host.gather gather_S100000x128_S800000x1_S800000x128_1_0_n_n_0_1_1128 h (indexColumn s)

/-- The gathered rows with the guard applied. -/
def guarded (h : FVec F S100000x128 .f32) (s : IVec S800000 32) : FVec F S800000x128 .f32 :=
  select (broadcastInDim S800000x128 ![0] bcast_S800000_S800000x128_0 (inBounds s)) (gathered h s)
    (broadcastInDim S800000x128 ![] bcast_S_S800000x128 (constant S_ .f32 0x7FC00000#32))

/-- The index column at edge `e` is the normalised index of edge `e`. -/
theorem indexColumn_apply (s : IVec S800000 32) (i : S800000x1.Idx) :
    indexColumn s i = IndexWrap.norm (s (ix1 (i 0))) := by
  unfold indexColumn
  exact broadcastInDim_apply _ bcast_S800000_S800000x1_0 _ i (ix1 (i 0)) (fun a => match a with
    | ⟨0, _⟩ => by show (i 0).val = if (800000 : Nat) = 1 then 0 else (i 0).val; rw [if_neg (by decide)])

/-- With every index in [-100000, 100000) the mask is 1 at every edge. -/
theorem inBounds_of_range (s : IVec S800000 32)
    (hs : ∀ e : S800000.Idx, (-100000 : Int) ≤ (s e).toInt ∧ (s e).toInt < 100000) (e : S800000.Idx) :
    inBounds s e = 1#1 := by
  unfold inBounds
  refine Host.reduce_andi_of_all _ _ _ _ rfl (fun i => ?_) e
  show IntOp.andi (IntOp.cmpi .sge (indexColumn s i) 0#32) (IntOp.cmpi .sle (indexColumn s i) 99999#32) = 1#1
  rw [indexColumn_apply]
  exact IndexWrap.norm_tests _ (hs _).1 (hs _).2

/-- So the guard changes nothing. -/
theorem guarded_of_range (h : FVec F S100000x128 .f32) (s : IVec S800000 32)
    (hs : ∀ e : S800000.Idx, (-100000 : Int) ≤ (s e).toInt ∧ (s e).toInt < 100000) :
    guarded h s = gathered h s := by
  funext i
  unfold guarded
  rw [select_apply]
  have hb : (broadcastInDim S800000x128 ![0] bcast_S800000_S800000x128_0 (inBounds s)) i = 1#1 := by
    rw [broadcastInDim_apply _ bcast_S800000_S800000x128_0 (inBounds s) i (ix1 (i 0)) (fun a => match a with
      | ⟨0, _⟩ => by show (i 0).val = if (800000 : Nat) = 1 then 0 else (i 0).val; rw [if_neg (by decide)])]
    exact inBounds_of_range s hs _
  rw [hb, select_one]

/-! ## The arrays at the launch -/

variable (m : (ℓ : Loc nD τ sig) → Buf (Elt F) ℓ)

/-! An argument array read through a typed reference is the argument array. -/

theorem read_table (c : Dev nD) (p1 : main_arg0.ty = ⟨S100000x128, .f32⟩) (p2 : main_arg0.space ≠ .host) (p3 : main_arg0.isScoped = false) :
    (TRef.of (T := ⟨S100000x128, .f32⟩) main_arg0 p1 p2 p3).ofBuf (m (c, Proc.devRef .tc (TRef.of (T := ⟨S100000x128, .f32⟩) main_arg0 p1 p2 p3).ref))
      = m ((c : Thread nD τ).loc main_arg0) := rfl

theorem read_src (c : Dev nD) (p1 : main_arg1.ty = ⟨S800000, .i32⟩) (p2 : main_arg1.space ≠ .host) (p3 : main_arg1.isScoped = false) :
    (TRef.of (T := ⟨S800000, .i32⟩) main_arg1 p1 p2 p3).ofBuf (m (c, Proc.devRef .tc (TRef.of (T := ⟨S800000, .i32⟩) main_arg1 p1 p2 p3).ref))
      = m ((c : Thread nD τ).loc main_arg1) := rfl

theorem read_dst (c : Dev nD) (p1 : main_arg2.ty = ⟨S800000, .i32⟩) (p2 : main_arg2.space ≠ .host) (p3 : main_arg2.isScoped = false) :
    (TRef.of (T := ⟨S800000, .i32⟩) main_arg2 p1 p2 p3).ofBuf (m (c, Proc.devRef .tc (TRef.of (T := ⟨S800000, .i32⟩) main_arg2 p1 p2 p3).ref))
      = m ((c : Thread nD τ).loc main_arg2) := rfl

/-! Contents written through a typed reference into a feature array's buffer are those contents. -/

theorem written_featU (Z : FVec F S800000x128 .f32) (p1 : main_v0.ty = ⟨S800000x128, .f32⟩) (p2 : main_v0.space ≠ .host)
    (p3 : main_v0.isScoped = false) :
    ((TRef.of (T := ⟨S800000x128, .f32⟩) main_v0 p1 p2 p3).toBuf (Val := Elt F) Z : FVec F S800000x128 .f32) = Z := rfl

theorem written_featV (Z : FVec F S800000x128 .f32) (p1 : main_v1.ty = ⟨S800000x128, .f32⟩) (p2 : main_v1.space ≠ .host)
    (p3 : main_v1.isScoped = false) :
    ((TRef.of (T := ⟨S800000x128, .f32⟩) main_v1 p1 p2 p3).toBuf (Val := Elt F) Z : FVec F S800000x128 .f32) = Z := rfl

set_option maxHeartbeats 4000000 in
theorem featU_eq (c : Dev nD) :
    (V m c main_v0 : FVec F S800000x128 .f32) = guarded (m ((c : Thread nD τ).loc main_arg0)) (m ((c : Thread nD τ).loc main_arg1)) := by
  unfold guarded gathered inBounds indexColumn
  dsimp only [V]
  simp only [hostOps0, hostOps0_1, hostOps0_2, List.flatten_cons, List.flatten_nil, List.append_nil, List.cons_append, List.nil_append]
  after_results
  simp only [TRef.ofBuf_toBuf, read_table, read_src]
  exact written_featU _ _ _ _

set_option maxHeartbeats 4000000 in
theorem featV_eq (c : Dev nD) :
    (V m c main_v1 : FVec F S800000x128 .f32) = guarded (m ((c : Thread nD τ).loc main_arg0)) (m ((c : Thread nD τ).loc main_arg2)) := by
  unfold guarded gathered inBounds indexColumn
  dsimp only [V]
  simp only [hostOps0, hostOps0_1, hostOps0_2, List.flatten_cons, List.flatten_nil, List.append_nil, List.cons_append, List.nil_append]
  after_results
  simp only [TRef.ofBuf_toBuf, read_table, read_dst]
  exact written_featV _ _ _ _

theorem w1a_eq (c : Dev nD) :
    (V m c main_v3 : FVec F S128x128 .bf16)
      = truncf .bf16 (extractStridedSlice S128x128 ![0, 0] (m ((c : Thread nD τ).loc main_arg3)) slices_S256x128_S128x128_0_0) bitsLt_bf16_f32 := by
  dsimp only [V]
  simp only [hostOps0, hostOps0_1, hostOps0_2, List.flatten_cons, List.flatten_nil, List.append_nil, List.cons_append, List.nil_append]
  after_results

theorem w1b_eq (c : Dev nD) :
    (V m c main_v5 : FVec F S128x128 .bf16)
      = truncf .bf16 (extractStridedSlice S128x128 ![128, 0] (m ((c : Thread nD τ).loc main_arg3)) slices_S256x128_S128x128_128_0) bitsLt_bf16_f32 := by
  dsimp only [V]
  simp only [hostOps0, hostOps0_1, hostOps0_2, List.flatten_cons, List.flatten_nil, List.append_nil, List.cons_append, List.nil_append]
  after_results

theorem w2_eq (c : Dev nD) :
    (V m c main_v6 : FVec F S128x128 .bf16) = truncf .bf16 (m ((c : Thread nD τ).loc main_arg5)) bitsLt_bf16_f32 := by
  dsimp only [V]
  simp only [hostOps0, hostOps0_1, hostOps0_2, List.flatten_cons, List.flatten_nil, List.append_nil, List.cons_append, List.nil_append]
  after_results

theorem w3_eq (c : Dev nD) :
    (V m c main_v7 : FVec F S128x2 .bf16) = truncf .bf16 (m ((c : Thread nD τ).loc main_arg7)) bitsLt_bf16_f32 := by
  dsimp only [V]
  simp only [hostOps0, hostOps0_1, hostOps0_2, List.flatten_cons, List.flatten_nil, List.append_nil, List.cons_append, List.nil_append]
  after_results

theorem bias1_eq (c : Dev nD) :
    (V m c main_v8 : FVec F S1x128 .f32) = shapeCast S1x128 (m ((c : Thread nD τ).loc main_arg4)) shapeCasts_S128_S1x128 := by
  dsimp only [V]
  simp only [hostOps0, hostOps0_1, hostOps0_2, List.flatten_cons, List.flatten_nil, List.append_nil, List.cons_append, List.nil_append]
  after_results
  rfl

theorem bias2_eq (c : Dev nD) :
    (V m c main_v9 : FVec F S1x128 .f32) = shapeCast S1x128 (m ((c : Thread nD τ).loc main_arg6)) shapeCasts_S128_S1x128 := by
  dsimp only [V]
  simp only [hostOps0, hostOps0_1, hostOps0_2, List.flatten_cons, List.flatten_nil, List.append_nil, List.cons_append, List.nil_append]
  after_results
  rfl

theorem bias3_eq (c : Dev nD) :
    (V m c main_v10 : FVec F S1x2 .f32) = shapeCast S1x2 (m ((c : Thread nD τ).loc main_arg8)) shapeCasts_S2_S1x2 := by
  dsimp only [V]
  simp only [hostOps0, hostOps0_1, hostOps0_2, List.flatten_cons, List.flatten_nil, List.append_nil, List.cons_append, List.nil_append]
  after_results
  rfl

end Cert.KernelIdeal.HostArrays

end
-- ==== Proof.RefScore.lean ====
/-
  The reference program's result, element by element, is the edge score of the two gathered rows.

  The reference gathers a row of the node table for each endpoint, lays the two rows side by side into one row of 256
  entries, and runs three dense layers over all edges at once.  Read at edge `e` and output `o`, every stage depends
  on edge `e`'s rows only: a matrix product's entry (e, j) sums over the entries of row `e`; a bias is broadcast
  along the edges; the ramp is entrywise.  So the result at (e, o) is `EdgeScore.score` of the two gathered rows at
  `e`, with the first layer's matrix taken as its upper and lower halves: the side-by-side row read on the upper half
  is the first endpoint's row, on the lower half the second endpoint's (`EdgeScore.concat_layer`).

  What the gathered rows are is not opened here: they enter as the arrays the two gather stages produce.
-/
import proofs.«420651_j15960098471964_1_alg».proof.Proof.Gen.ReferenceIdeal.Read
import proofs.«420651_j15960098471964_1_alg».proof.Proof.EdgeScore

noncomputable section

open scoped BigOperators

namespace Cert.ReferenceIdeal.RefScore

open Cert.ReferenceIdeal Cert.ReferenceIdeal.Gen Cert.ReferenceIdeal.Read Idealize.ShloMosaic
open Idealize.ShloMosaic.ValueIdx EdgeScore

variable (x0 : FVec Ideal S100000x128 .f32) (x1 x2 : IVec S800000 32) (x3 : FVec Ideal S256x128 .f32)
  (x4 : FVec Ideal S128 .f32) (x5 : FVec Ideal S128x128 .f32) (x6 : FVec Ideal S128 .f32)
  (x7 : FVec Ideal S128x2 .f32) (x8 : FVec Ideal S2 .f32)

/-- The first endpoint's gathered row at edge `e`. -/
def rowU (e : Fin 800000) : Fin 128 → EReal := fun f => val_main_v6 (F := Ideal) x0 x1 (ix2 e f)

/-- The second endpoint's gathered row at edge `e`. -/
def rowV (e : Fin 800000) : Fin 128 → EReal := fun f => val_main_v13 (F := Ideal) x0 x2 (ix2 e f)

/-- The side-by-side row on the upper half is the first endpoint's row. -/
theorem concat_lo (e : Fin 800000) (i : Fin 128) :
    val_main_v14 (F := Ideal) x0 x1 x2 (ix2 e (lo i)) = rowU x0 x1 e i := by
  unfold val_main_v14 rowU
  exact concatenate_pair_apply_left (t := S800000x256) (s₁ := S800000x128) (s₂ := S800000x128) (1 : Fin 2)
    (val_main_v6 (F := Ideal) x0 x1) (val_main_v13 (F := Ideal) x0 x2)
    concatenates_S800000x128_S800000x128_S800000x256_d1 (ix2 e (lo i)) rfl
    (ix2 e i) (fun b => match b with | ⟨0, _⟩ => rfl | ⟨1, _⟩ => rfl)

/-- The side-by-side row on the lower half is the second endpoint's row. -/
theorem concat_hi (e : Fin 800000) (i : Fin 128) :
    val_main_v14 (F := Ideal) x0 x1 x2 (ix2 e (hi i)) = rowV x0 x2 e i := by
  unfold val_main_v14 rowV
  exact concatenate_pair_apply_right (t := S800000x256) (s₁ := S800000x128) (s₂ := S800000x128) (1 : Fin 2)
    (val_main_v6 (F := Ideal) x0 x1) (val_main_v13 (F := Ideal) x0 x2)
    concatenates_S800000x128_S800000x128_S800000x256_d1 (ix2 e (hi i)) rfl rfl
    (ix2 e i) (fun b => match b with | ⟨0, _⟩ => fun _ => rfl | ⟨1, _⟩ => fun h => absurd rfl h)
    (by show i.val + 128 = 128 + i.val; omega)

/-! The index maps the stage lemmas name, at an index given by its coordinates. -/

theorem lidx15 (e : Fin 800000) (j : Fin 128) (k : Fin 256) : lidx_main_v15 (ix2 e j) k = ix2 e k :=
  funext fun a => match a with | ⟨0, _⟩ => rfl | ⟨1, _⟩ => rfl
theorem ridx15 (e : Fin 800000) (j : Fin 128) (k : Fin 256) : ridx_main_v15 (ix2 e j) k = ix2 k j :=
  funext fun a => match a with | ⟨0, _⟩ => rfl | ⟨1, _⟩ => rfl
theorem bias17 (e : Fin 800000) (j : Fin 128) : idx_main_v16 (idx_main_v17 (ix2 e j)) = ix1 j :=
  funext fun a => match a with | ⟨0, _⟩ => rfl
theorem lidx20 (e : Fin 800000) (k : Fin 128) (j : Fin 128) : lidx_main_v20 (ix2 e k) j = ix2 e j :=
  funext fun a => match a with | ⟨0, _⟩ => rfl | ⟨1, _⟩ => rfl
theorem ridx20 (e : Fin 800000) (k : Fin 128) (j : Fin 128) : ridx_main_v20 (ix2 e k) j = ix2 j k :=
  funext fun a => match a with | ⟨0, _⟩ => rfl | ⟨1, _⟩ => rfl
theorem bias22 (e : Fin 800000) (k : Fin 128) : idx_main_v21 (idx_main_v22 (ix2 e k)) = ix1 k :=
  funext fun a => match a with | ⟨0, _⟩ => rfl
theorem lidx25 (e : Fin 800000) (o : Fin 2) (k : Fin 128) : lidx_main_v25 (ix2 e o) k = ix2 e k :=
  funext fun a => match a with | ⟨0, _⟩ => rfl | ⟨1, _⟩ => rfl
theorem ridx25 (e : Fin 800000) (o : Fin 2) (k : Fin 128) : ridx_main_v25 (ix2 e o) k = ix2 k o :=
  funext fun a => match a with | ⟨0, _⟩ => rfl | ⟨1, _⟩ => rfl
theorem bias27 (e : Fin 800000) (o : Fin 2) : idx_main_v26 (idx_main_v27 (ix2 e o)) = ix1 o :=
  funext fun a => match a with | ⟨0, _⟩ => rfl

/-- The ramp's floor, a broadcast zero word, is the extended real 0 at every index. -/
theorem floor0 (i : S800000x128.Idx) : val_main_call0_v0 (F := Ideal) i = 0 := by
  rw [val_main_call0_v0_apply, val_main_call0_cst_apply]
  exact Ideal.ofBits_zero_f32
theorem floor1 (i : S800000x128.Idx) : val_main_call1_v0 (F := Ideal) i = 0 := by
  rw [val_main_call1_v0_apply, val_main_call1_cst_apply]
  exact Ideal.ofBits_zero_f32

/-- First layer and ramp at edge `e`, unit `j`. -/
theorem layer1 (e : Fin 800000) (j : Fin 128) :
    val_main_v19 (F := Ideal) x0 x1 x2 x3 x4 (ix2 e j)
      = hidden1 (rowU x0 x1 e) (rowV x0 x2 e) (fun i j => x3 (ix2 (lo i) j)) (fun i j => x3 (ix2 (hi i) j)) (fun j => x4 (ix1 j)) j := by
  rw [val_main_v19_apply, val_main_v18_apply, val_main_v15_apply, val_main_v17_apply, val_main_v16_apply, floor0, bias17]
  simp only [lidx15, ridx15]
  rw [concat_layer (fun k => val_main_v14 (F := Ideal) x0 x1 x2 (ix2 e k)) (rowU x0 x1 e) (rowV x0 x2 e)
    (fun k j => x3 (ix2 k j)) j (concat_lo x0 x1 x2 e) (concat_hi x0 x1 x2 e)]
  rfl

/-- Second layer and ramp at edge `e`, unit `k`. -/
theorem layer2 (e : Fin 800000) (k : Fin 128) :
    val_main_v24 (F := Ideal) x0 x1 x2 x3 x4 x5 x6 (ix2 e k)
      = hidden2 (fun j => val_main_v19 (F := Ideal) x0 x1 x2 x3 x4 (ix2 e j)) (fun j k => x5 (ix2 j k)) (fun k => x6 (ix1 k)) k := by
  rw [val_main_v24_apply, val_main_v23_apply, val_main_v20_apply, val_main_v22_apply, val_main_v21_apply, floor1, bias22]
  simp only [lidx20, ridx20]
  rfl

/-- Output layer at edge `e`, score `o`. -/
theorem layer3 (e : Fin 800000) (o : Fin 2) :
    val_main_v28 (F := Ideal) x0 x1 x2 x3 x4 x5 x6 x7 x8 (ix2 e o)
      = output (fun k => val_main_v24 (F := Ideal) x0 x1 x2 x3 x4 x5 x6 (ix2 e k)) (fun k o => x7 (ix2 k o)) (fun o => x8 (ix1 o)) o := by
  rw [val_main_v28_apply, val_main_v25_apply, val_main_v27_apply, val_main_v26_apply, bias27]
  simp only [lidx25, ridx25]
  rfl

/-- The reference's result at `(e, o)` is the edge score of the two gathered rows at `e`. -/
theorem result_apply (e : Fin 800000) (o : Fin 2) :
    val_main_v28 (F := Ideal) x0 x1 x2 x3 x4 x5 x6 x7 x8 (ix2 e o)
      = score (rowU x0 x1 e) (rowV x0 x2 e) (fun i j => x3 (ix2 (lo i) j)) (fun i j => x3 (ix2 (hi i) j)) (fun j => x4 (ix1 j))
          (fun j k => x5 (ix2 j k)) (fun k => x6 (ix1 k)) (fun k o => x7 (ix2 k o)) (fun o => x8 (ix1 o)) o := by
  rw [layer3]
  unfold score
  congr 1
  funext k
  rw [layer2]
  congr 1
  funext j
  exact layer1 x0 x1 x2 x3 x4 e j

end Cert.ReferenceIdeal.RefScore

end
-- ==== Proof.Bridge.lean ====
/-
  The kernel's score array is the reference's result.

  Both are, at edge `e` and score `o`, `EdgeScore.score` of two feature rows, the halves of the first weight matrix,
  the other two matrices and the three biases.  It remains to see that the kernel's inputs are the reference's:

  * the feature rows: under the index range of the precondition the kernel's guarded gather is the plain gather at
    the normalised indices, and that is, operation by operation, the reference's gather stage;
  * the upper and lower half of the first weight matrix: a slice of 128 rows from row 0, respectively from row 128,
    read at `(i, j)` is the matrix at `(i, j)`, respectively at `(128 + i, j)`; the change of float format on top
    of it, and on the other two matrices, is the identity on the extended reals;
  * a bias reshaped to one row, read at column `j`, is the bias's entry `j`.
-/
import proofs.«420651_j15960098471964_1_alg».proof.Proof.KernelArray
import proofs.«420651_j15960098471964_1_alg».proof.Proof.HostArrays
import proofs.«420651_j15960098471964_1_alg».proof.Proof.RefScore

noncomputable section

namespace Cert.KernelIdeal.Bridge

open Cert.KernelIdeal Cert.KernelIdeal.Gen Idealize.ShloMosaic Idealize.ShloMosaic.TcCoe
open Idealize.ShloMosaic.ValueIdx EdgeScore

/-- The rows gathered at the normalised indices are the reference's gather stage for the source indices. -/
theorem gathered_src (x0 : FVec Ideal S100000x128 .f32) (x1 : IVec S800000 32) :
    HostArrays.gathered (F := Ideal) x0 x1 = Cert.ReferenceIdeal.Read.val_main_v6 (F := Ideal) x0 x1 := rfl

/-- And its gather stage for the destination indices. -/
theorem gathered_dst (x0 : FVec Ideal S100000x128 .f32) (x2 : IVec S800000 32) :
    HostArrays.gathered (F := Ideal) x0 x2 = Cert.ReferenceIdeal.Read.val_main_v13 (F := Ideal) x0 x2 := rfl

variable (m : (ℓ : Loc nD τ sig) → Buf (Elt Ideal) ℓ)

/-- The index range the precondition gives, for one of the two index arrays. -/
abbrev InRange (s : IVec S800000 32) : Prop := ∀ e : S800000.Idx, (-100000 : Int) ≤ (s e).toInt ∧ (s e).toInt < 100000

theorem featU_ref (c : Dev nD) (hs : InRange (m ((c : Thread nD τ).loc main_arg1))) :
    KernelBlocks.featU m c
      = Cert.ReferenceIdeal.Read.val_main_v6 (F := Ideal) (m ((c : Thread nD τ).loc main_arg0)) (m ((c : Thread nD τ).loc main_arg1)) :=
  ((HostArrays.featU_eq m c).trans (HostArrays.guarded_of_range _ _ hs)).trans (gathered_src _ _)

theorem featV_ref (c : Dev nD) (hs : InRange (m ((c : Thread nD τ).loc main_arg2))) :
    KernelBlocks.featV m c
      = Cert.ReferenceIdeal.Read.val_main_v13 (F := Ideal) (m ((c : Thread nD τ).loc main_arg0)) (m ((c : Thread nD τ).loc main_arg2)) :=
  ((HostArrays.featV_eq m c).trans (HostArrays.guarded_of_range _ _ hs)).trans (gathered_dst _ _)

theorem w1a_apply (c : Dev nD) (i j : Fin 128) :
    KernelBlocks.w1a m c (ix2 i j) = (m ((c : Thread nD τ).loc main_arg3) : FVec Ideal S256x128 .f32) (ix2 (lo i) j) :=
  (congrFun (HostArrays.w1a_eq m c) (ix2 i j)).trans
    (extractStridedSlice_apply ![0, 0] (m ((c : Thread nD τ).loc main_arg3) : FVec Ideal S256x128 .f32) slices_S256x128_S128x128_0_0
      (ix2 i j) (ix2 (lo i) j) (fun a => match a with
        | ⟨0, _⟩ => by show i.val = 0 + i.val; omega
        | ⟨1, _⟩ => by show j.val = 0 + j.val; omega))

theorem w1b_apply (c : Dev nD) (i j : Fin 128) :
    KernelBlocks.w1b m c (ix2 i j) = (m ((c : Thread nD τ).loc main_arg3) : FVec Ideal S256x128 .f32) (ix2 (hi i) j) :=
  (congrFun (HostArrays.w1b_eq m c) (ix2 i j)).trans
    (extractStridedSlice_apply ![128, 0] (m ((c : Thread nD τ).loc main_arg3) : FVec Ideal S256x128 .f32) slices_S256x128_S128x128_128_0
      (ix2 i j) (ix2 (hi i) j) (fun a => match a with
        | ⟨0, _⟩ => by show 128 + i.val = 128 + i.val; rfl
        | ⟨1, _⟩ => by show j.val = 0 + j.val; omega))

theorem w2_apply (c : Dev nD) (j k : Fin 128) :
    KernelBlocks.w2 m c (ix2 j k) = (m ((c : Thread nD τ).loc main_arg5) : FVec Ideal S128x128 .f32) (ix2 j k) :=
  congrFun (HostArrays.w2_eq m c) (ix2 j k)

theorem w3_apply (c : Dev nD) (k : Fin 128) (o : Fin 2) :
    KernelBlocks.w3 m c (ix2 k o) = (m ((c : Thread nD τ).loc main_arg7) : FVec Ideal S128x2 .f32) (ix2 k o) :=
  congrFun (HostArrays.w3_eq m c) (ix2 k o)

/-- A vector reshaped to one row, at column `j`, is the vector's entry `j`. -/
theorem row_apply {n : Nat} (v : (⟨1, ![n]⟩ : Shape).Idx → EReal) (h : (⟨1, ![n]⟩ : Shape).ShapeCasts ⟨2, ![1, n]⟩) (j : Fin n) :
    shapeCast ⟨2, ![1, n]⟩ v h (ix2 (0 : Fin 1) j) = v (ix1 j) :=
  (shapeCast_addUnit_apply ![n] v h (ix2 (0 : Fin 1) j)).trans
    (congrArg v (funext fun a => match a with | ⟨0, _⟩ => rfl))

theorem bias1_apply (c : Dev nD) (j : Fin 128) :
    KernelBlocks.bias1 m c (ix2 (0 : Fin 1) j) = (m ((c : Thread nD τ).loc main_arg4) : FVec Ideal S128 .f32) (ix1 j) :=
  (congrFun (HostArrays.bias1_eq m c) (ix2 (0 : Fin 1) j)).trans (row_apply _ shapeCasts_S128_S1x128 j)

theorem bias2_apply (c : Dev nD) (k : Fin 128) :
    KernelBlocks.bias2 m c (ix2 (0 : Fin 1) k) = (m ((c : Thread nD τ).loc main_arg6) : FVec Ideal S128 .f32) (ix1 k) :=
  (congrFun (HostArrays.bias2_eq m c) (ix2 (0 : Fin 1) k)).trans (row_apply _ shapeCasts_S128_S1x128 k)

theorem bias3_apply (c : Dev nD) (o : Fin 2) :
    KernelBlocks.bias3 m c (ix2 (0 : Fin 1) o) = (m ((c : Thread nD τ).loc main_arg8) : FVec Ideal S2 .f32) (ix1 o) :=
  (congrFun (HostArrays.bias3_eq m c) (ix2 (0 : Fin 1) o)).trans (row_apply _ shapeCasts_S2_S1x2 o)

/-- Under the index ranges, the kernel's score array is the reference's result of the same arguments. -/
theorem scores_eq_ref (c : Dev nD) (hs1 : InRange (m ((c : Thread nD τ).loc main_arg1)))
    (hs2 : InRange (m ((c : Thread nD τ).loc main_arg2))) :
    KernelBlocks.scores m c
      = Cert.ReferenceIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext i
  obtain ⟨e, o, rfl⟩ : ∃ (e : Fin 800000) (o : Fin 2), i = ix2 e o := ⟨i 0, i 1, eq_ix2 i⟩
  rw [Cert.ReferenceIdeal.RefScore.result_apply, KernelBlocks.scores_apply]
  exact score_congr
    (fun f => congrFun (featU_ref m c hs1) (ix2 e f)) (fun f => congrFun (featV_ref m c hs2) (ix2 e f))
    (fun i j => w1a_apply m c i j) (fun i j => w1b_apply m c i j) (fun j => bias1_apply m c j)
    (fun j k => w2_apply m c j k) (fun k => bias2_apply m c k) (fun k o => w3_apply m c k o)
    (fun o => bias3_apply m c o) o

end Cert.KernelIdeal.Bridge

end
-- ==== Proof.PreRange.lean ====
/-
  What the precondition says of the two index arrays.

  The precondition is a conjunction of whole-array tests, each an `and`-reduction to one bit; its last two
  conjuncts say that every source index and every destination index lies in [-100000, 100000).  Reading the
  conjunction at its one index and each `and`-reduction back to its elements gives, for every edge, the two signed
  comparisons, and a signed comparison that holds is the order of the words' signed values.
-/
import proofs.«420651_j15960098471964_1_alg».proof.Pre_finite_inputs
import proofs.«420651_j15960098471964_1_alg».proof.Proof.IndexWrap
import Idealize.ShloMosaic.Lib.ReduceAll
import Idealize.ShloMosaic.Lib.Affine
import Idealize.ShloMosaic.Lib.ValueIdx

namespace Cert.Pre_finite_inputs.Range

open Cert.Pre_finite_inputs Idealize.ShloMosaic

variable [Facts]
open Facts

instance : Subsingleton S_.Idx := ⟨fun a b => funext fun d => d.elim0⟩

variable {F : FTy → Type} [FloatOps F]

/-- One index array's conjunct, read back to its elements. -/
theorem of_all (a : IVec S800000 32)
    (h : Host.reduce IntOp.andi
          (andi (cmpi .sge a (broadcastInDim S800000 ![] bcast_S_S800000 (constantI S_ 32 4294867296#32)))
                (cmpi .slt a (broadcastInDim S800000 ![] bcast_S_S800000 (constantI S_ 32 100000#32))))
          (constantI S_ 1 1#1) reducesTo_S800000_S_d0 h_S_ ValueIdx.ix0 = 1#1)
    (e : S800000.Idx) : (-100000 : Int) ≤ (a e).toInt ∧ (a e).toInt < 100000 := by
  have he := Host.reduce_andi_all _ _ _ _ ValueIdx.ix0 h e
  obtain ⟨hge, hlt⟩ := IntOp.andi_eq_one.1 he
  have hge' := IntOp.cmpi_sge.1 hge
  have hlt' := IntOp.cmpi_slt.1 hlt
  constructor
  · rw [← IndexWrap.toInt_neg_extent]; exact hge'
  · rw [← IndexWrap.toInt_extent]; exact hlt'

/-- Under the precondition every source index and every destination index lies in [-100000, 100000). -/
theorem of_pre (a0 : FVec F S100000x128 .f32) (a1 a2 : IVec S800000 32) (a3 : FVec F S256x128 .f32) (a4 : FVec F S128 .f32)
    (a5 : FVec F S128x128 .f32) (a6 : FVec F S128 .f32) (a7 : FVec F S128x2 .f32) (a8 : FVec F S2 .f32)
    (h : fn (F := F) a0 a1 a2 a3 a4 a5 a6 a7 a8 = fun _ => 1#1) :
    (∀ e : S800000.Idx, (-100000 : Int) ≤ (a1 e).toInt ∧ (a1 e).toInt < 100000)
      ∧ (∀ e : S800000.Idx, (-100000 : Int) ≤ (a2 e).toInt ∧ (a2 e).toInt < 100000) := by
  have h0 := congrFun h ValueIdx.ix0
  unfold fn fn_part1 fn_part2 at h0
  obtain ⟨h1, hdst⟩ := IntOp.andi_eq_one.1 h0
  obtain ⟨-, hsrc⟩ := IntOp.andi_eq_one.1 h1
  exact ⟨of_all a1 hsrc, of_all a2 hdst⟩

end Cert.Pre_finite_inputs.Range
-- ==== Proof.lean ====
/-
  An edge scorer on a graph: for each of 800000 edges, the feature rows of its two endpoints are taken from a node
  table of 100000 rows, set side by side, and passed through three dense layers (ramp, ramp, none) to two scores.

  The kernel and the reference differ in three ways, none of which changes a value on the extended reals.
  The reference lays the two rows into one row of 256 entries and multiplies by the whole first matrix; the kernel
  multiplies each row by its half of the matrix and adds: a sum over 256 terms split into two sums of 128
  (`EdgeScore.concat_layer`; addition of extended reals is commutative and associative, so nothing need be finite).
  The kernel narrows its operands' float format before each matrix product: the identity on the extended reals.
  The kernel works on blocks of 6400 edges: each score depends on its own edge's rows only, so the blocks are the
  restrictions of one function of the whole arrays (module KernelArray).

  A fourth difference does change values, and is excluded by the precondition: the kernel's gather replaces a row whose
  normalised index falls outside [0, 99999] by a fill word, where the reference's gather clamps the index.  Every
  index in [-100000, 100000) normalises into [0, 99999] (`IndexWrap.norm_in_range`), so under the precondition the
  guard never fires and both gathers are the same operation on the same indices (module Bridge).

  The three frames are the generated ones; the kernel has no idealisation ledger, so `preserves` is trivial.
-/
import proofs.«420651_j15960098471964_1_alg».proof.Defs
import proofs.«420651_j15960098471964_1_alg».proof.Proof.Gen.Kernel
import proofs.«420651_j15960098471964_1_alg».proof.Proof.Gen.Kernel.Skeleton
import proofs.«420651_j15960098471964_1_alg».proof.Proof.Gen.Kernel.Launch
import proofs.«420651_j15960098471964_1_alg».proof.Proof.Gen.Kernel.Points
import proofs.«420651_j15960098471964_1_alg».proof.Proof.Gen.Kernel.Frame
import proofs.«420651_j15960098471964_1_alg».proof.Proof.Gen.KernelIdeal
import proofs.«420651_j15960098471964_1_alg».proof.Proof.Gen.KernelIdeal.Skeleton
import proofs.«420651_j15960098471964_1_alg».proof.Proof.Gen.KernelIdeal.Launch
import proofs.«420651_j15960098471964_1_alg».proof.Proof.Gen.KernelIdeal.Points
import proofs.«420651_j15960098471964_1_alg».proof.Proof.Gen.KernelIdeal.Frame
import proofs.«420651_j15960098471964_1_alg».proof.Proof.Gen.ReferenceIdeal
import proofs.«420651_j15960098471964_1_alg».proof.Proof.Gen.KernelIdeal.Value
import proofs.«420651_j15960098471964_1_alg».proof.Proof.Gen.ReferenceIdeal.Run
import proofs.«420651_j15960098471964_1_alg».proof.Proof.Gen.ReferenceIdeal.Read
import proofs.«420651_j15960098471964_1_alg».proof.Proof.Gen.Pre_finite_inputs
import proofs.«420651_j15960098471964_1_alg».proof.Proof.Bridge
import proofs.«420651_j15960098471964_1_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no launch: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the score array at `KernelBlocks.scores` of the kernel's arguments: the kernel's by the blocks
    (KernelArray), the reference's because its result term, with its arguments replaced by the kernel's equal ones, is
    that array under the precondition's index ranges (Bridge). -/
theorem algebraic : Cert.algebraic_KernelIdeal_ReferenceIdeal := by
  intro m ρ m' ρ' hpre hagree
  refine ⟨fun c => Cert.KernelIdeal.KernelBlocks.scores m c, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v28_eq]
  obtain ⟨hs1, hs2⟩ := Cert.Pre_finite_inputs.Range.of_pre _ _ _ _ _ _ _ _ _ (hpre c)
  exact (Cert.KernelIdeal.Bridge.scores_eq_ref m c hs1 hs2).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
